-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S256 .f32) (main_arg2 : IVec S16777216 32) (main_arg3 : FVec F S4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩
abbrev S16777216x1 : Shape := ⟨2, ![16777216, 1]⟩
abbrev S4096x4096 : Shape := ⟨2, ![4096, 4096]⟩
abbrev S1x4096 : Shape := ⟨2, ![1, 4096]⟩
abbrev S8192x4096 : Shape := ⟨2, ![8192, 4096]⟩
abbrev S1024x4096 : Shape := ⟨2, ![1024, 4096]⟩
abbrev S4096x512 : Shape := ⟨2, ![4096, 512]⟩
abbrev S512 : Shape := ⟨1, ![512]⟩
abbrev S1024x512 : Shape := ⟨2, ![1024, 512]⟩
abbrev S1x512 : Shape := ⟨2, ![1, 512]⟩

abbrev nBuf : Space → Nat
  | .hbm => 27
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S16777216, .i32⟩
  | .hbm, ⟨3, _⟩ => ⟨S4096, .f32⟩
  | .hbm, ⟨4, _⟩ => ⟨S4096, .f32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S16777216, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S8192x4096, .f32⟩
  | .hbm, ⟨24, _⟩ => ⟨S8192x4096, .bf16⟩
  | .hbm, ⟨25, _⟩ => ⟨S8192x4096, .f32⟩
  | .hbm, ⟨26, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S512, .f32⟩
  | .local _ .vmem, ⟨5, _⟩ => ⟨S512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S4096x4096 : S16777216.ShapeCasts S4096x4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  gather_S256_S16777216x1_S16777216_n_0_n_n_0_1_1_wf : GatherDims.WF S256 S16777216x1 S16777216 [] [0] [] [0] [] 1 ![1]
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def gather_S256_S16777216x1_S16777216_n_0_n_n_0_1_1 : GatherDims S256 S16777216x1 S16777216 where
  offsetDims := []
  collapsedSliceDims := [0]
  operandBatchingDims := []
  startIndicesBatchingDims := []
  startIndexMap := [0]
  indexVectorDim := 1
  sliceSizes := ![1]
  wf := gather_S256_S16777216x1_S16777216_n_0_n_n_0_1_1_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v16) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩
abbrev S16777216x1 : Shape := ⟨2, ![16777216, 1]⟩
abbrev S4096x4096 : Shape := ⟨2, ![4096, 4096]⟩
abbrev S1x4096 : Shape := ⟨2, ![1, 4096]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S16777216, .i32⟩
  | .hbm, ⟨3, _⟩ => ⟨S4096, .f32⟩
  | .hbm, ⟨4, _⟩ => ⟨S4096, .f32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S16777216, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S4096x4096 : S16777216.ShapeCasts S4096x4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S16777216x1_S16777216_n_0_n_n_0_1_1_wf : GatherDims.WF S256 S16777216x1 S16777216 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S256_S16777216x1_S16777216_n_0_n_n_0_1_1 : GatherDims S256 S16777216x1 S16777216 where
  offsetDims := []
  collapsedSliceDims := [0]
  operandBatchingDims := []
  startIndicesBatchingDims := []
  startIndexMap := [0]
  indexVectorDim := 1
  sliceSizes := ![1]
  wf := gather_S256_S16777216x1_S16777216_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Linear.lean ====
/-
  The function both programs compute, over the extended reals: a linear layer.  For a weight matrix
  `W` (rows: output features, columns: input features), an input `x` of shape [4, 2048, 4096] and a
  bias vector,
      out[b, s, o] = (Σ_k x[b, s, k] · W[o, k]) + bias[o].
  `rows` is the same function on the flattened input (row `r = b·2048 + s`) against the transposed
  weights `Wt[k, o] = W[o, k]`:
      out2[r, o] = (Σ_k x2[r, k] · Wt[k, o]) + bias[o].
  No law beyond re-indexing joins the two: the sums have the same terms in the same order.
-/
import Idealize.ShloMosaic.PureOps.Ideal
import Idealize.ShloMosaic.Lib.ValueIdx

noncomputable section

namespace Cert.Linear

open Idealize.ShloMosaic Idealize.ShloMosaic.ValueIdx

/-- [batch, sequence, feature]. -/
abbrev SX : Shape := ⟨3, ![4, 2048, 4096]⟩
/-- [feature, feature]: the weights, either way round. -/
abbrev SW : Shape := ⟨2, ![4096, 4096]⟩
/-- [feature]: the bias. -/
abbrev SB : Shape := ⟨1, ![4096]⟩
/-- [batch · sequence, feature]: the flattened input and output. -/
abbrev SR : Shape := ⟨2, ![8192, 4096]⟩

/-- The linear layer: entry (b, s, o) is the inner product of `x[b, s, ·]` with row `o` of `W`, plus `bias[o]`. -/
def layer (x : SX.Idx → EReal) (W : SW.Idx → EReal) (bias : SB.Idx → EReal) : SX.Idx → EReal :=
  fun i => (∑ k : Fin 4096, x (ix3 (n0 := 4) (n1 := 2048) (n2 := 4096) (i 0) (i 1) k) * W (ix2 (n0 := 4096) (n1 := 4096) (i 2) k))
    + bias (ix1 (n := 4096) (i 2))

/-- The same on flattened rows against the transposed weights: entry (r, o) is the inner product of row `r` of
    `x2` with column `o` of `Wt`, plus `bias[o]`. -/
def rows (x2 : SR.Idx → EReal) (Wt : SW.Idx → EReal) (bias : SB.Idx → EReal) : SR.Idx → EReal :=
  fun j => (∑ k : Fin 4096, x2 (ix2 (n0 := 8192) (n1 := 4096) (j 0) k) * Wt (ix2 (n0 := 4096) (n1 := 4096) k (j 1)))
    + bias (ix1 (n := 4096) (j 1))

/-- Row `b·2048 + s` of the flattened result is entry (b, s, ·) of the layer, when `x2` is `x` flattened and `Wt` is
    `W` transposed. -/
theorem rows_flat (x : SX.Idx → EReal) (W : SW.Idx → EReal) (bias : SB.Idx → EReal)
    (x2 : SR.Idx → EReal) (Wt : SW.Idx → EReal)
    (hx : ∀ (b : Fin 4) (s : Fin 2048) (k : Fin 4096) (r : Fin 8192), r.val = b.val * 2048 + s.val →
      x2 (ix2 r k) = x (ix3 b s k))
    (hW : ∀ (o k : Fin 4096), Wt (ix2 k o) = W (ix2 o k))
    (i : SX.Idx) (j : SR.Idx) (h0 : (j 0).val = (i 0).val * 2048 + (i 1).val) (h1 : (j 1).val = (i 2).val) :
    rows x2 Wt bias j = layer x W bias i := by
  have e1 : (j 1 : Fin 4096) = (i 2 : Fin 4096) := Fin.ext h1
  unfold rows layer
  rw [e1]
  refine congrArg (· + bias (ix1 (n := 4096) (i 2))) (Finset.sum_congr rfl fun k _ => ?_)
  rw [hx (i 0) (i 1) k (j 0) h0, hW (i 2) k]

end Cert.Linear

end
-- ==== Proof.RefLayer.lean ====
/-
  The reference's result is the linear layer.  Its last stage is `dot_general(x, W) + broadcast(bias)` with
  `W` its own dequantised weight stage; read at (b, s, o) the `dot_general` contracts `x`'s last axis with `W`'s
  second, so the element is `Σ_k x[b, s, k] · W[o, k]`, and the broadcast bias reads `bias[o]`.
-/
import proofs.«176916_j39779987096002_1_alg».proof.Proof.Gen.ReferenceIdeal.Read
import proofs.«176916_j39779987096002_1_alg».proof.Proof.Linear

noncomputable section

namespace Cert.ReferenceIdeal.RefValue

open Cert.ReferenceIdeal Cert.ReferenceIdeal.Gen Cert.ReferenceIdeal.Read
open Idealize.ShloMosaic Idealize.ShloMosaic.ValueIdx

/-- The reference's result stage is `layer` of the input, the dequantised weights `val_main_v12` and the bias. -/
theorem result_eq_layer (x0 : FVec Ideal S4x2048x4096 .f32) (x1 : FVec Ideal S256 .f32) (x2 : IVec S16777216 32)
    (x3 x4 : FVec Ideal S4096 .f32) :
    val_main_v16 (F := Ideal) x0 x1 x2 x3 x4 = Cert.Linear.layer x0 (val_main_v12 (F := Ideal) x1 x2 x3) x4 := by
  funext i
  have el : ∀ k : Fin 4096, lidx_main_v13 i k = ix3 (n0 := 4) (n1 := 2048) (n2 := 4096) (i 0) (i 1) k := fun k =>
    funext fun a => Fin.ext (by match a with | ⟨0, _⟩ => rfl | ⟨1, _⟩ => rfl | ⟨2, _⟩ => rfl)
  have er : ∀ k : Fin 4096, ridx_main_v13 i k = ix2 (n0 := 4096) (n1 := 4096) (i 2) k := fun k =>
    funext fun a => Fin.ext (by match a with | ⟨0, _⟩ => rfl | ⟨1, _⟩ => rfl)
  have eb : idx_main_v14 (idx_main_v15 i) = ix1 (n := 4096) (i 2) :=
    funext fun a => Fin.ext (by match a with | ⟨0, _⟩ => rfl)
  rw [val_main_v16_apply, val_main_v13_apply, val_main_v15_apply, val_main_v14_apply, eb]
  unfold Cert.Linear.layer
  simp only [Ideal.addf_def, el, er]

end Cert.ReferenceIdeal.RefValue

end
-- ==== Proof.BlockValue.lean ====
/-
  What the kernel body stores, read at an entry.  The body loads a [1024, 4096] block `a` of the flattened input,
  a [4096, 512] block `w` of the transposed weights and a [512] block `β` of the bias, and stores
  `matmul(a, w, 0) + broadcast(β)`.  Over the extended reals the matmul into a zero accumulator is the plain sum
  over the contracted axis, so entry (p, q) of the stored block is `(Σ_k a[p, k] · w[k, q]) + β[q]`.
-/
import proofs.«176916_j39779987096002_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen
open Idealize.ShloMosaic Idealize.ShloMosaic.ValueIdx

/-! ## The matmul's operand indices, axis by axis -/

theorem lhs_row (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
theorem lhs_contr (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
theorem rhs_contr (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
theorem rhs_col (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-! ## The two non-pointwise pieces at an entry -/

/-- The block product into a zero accumulator, at (p, q): the sum over the shared axis. -/
theorem product_apply (a : FVec Ideal S1024x4096 .bf16) (w : FVec Ideal S4096x512 .bf16) (p : Fin 1024) (q : Fin 512) :
    matmul dot_S1024x4096_S4096x512_S1024x512_1_0_0_1_n_n none a w (constant (F := Ideal) S1024x512 .f32 0x00000000#32) (ix2 p q)
      = ∑ k : Fin 4096, a (ix2 p k) * w (ix2 k q) := by
  simp only [matmul]
  rw [Ideal.matmul_constant_zero_apply, ← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 p q) ((contrEquiv1 dot_S1024x4096_S4096x512_S1024x512_1_0_0_1_n_n 4096 rfl rfl).symm k) = ix2 p k := funext fun d => Fin.ext (by
    match d with
    | ⟨0, _⟩ => exact lhs_row _ _
    | ⟨1, _⟩ => exact (lhs_contr _ _).trans hk)
  have er : dot_S1024x4096_S4096x512_S1024x512_1_0_0_1_n_n.rhsIdx (ix2 p q) ((contrEquiv1 dot_S1024x4096_S4096x512_S1024x512_1_0_0_1_n_n 4096 rfl rfl).symm k) = ix2 k q := funext fun d => Fin.ext (by
    match d with
    | ⟨0, _⟩ => exact (rhs_contr _ _).trans hk
    | ⟨1, _⟩ => exact rhs_col _ _)
  rw [el, er]

/-- The bias block viewed as one row and repeated down the 1024 rows, at (p, q): `β[q]`. -/
theorem bias_apply (β : FVec Ideal S512 .f32) (p : Fin 1024) (q : Fin 512) :
    broadcastTo S1024x512 (shapeCast S1x512 β shapeCasts_S512_S1x512) broadcasts_S1x512_S1024x512 (ix2 p q) = β (ix1 q) := by
  rw [broadcastTo_apply _ broadcasts_S1x512_S1024x512 (ix2 p q) (ix2 (n0 := 1) (n1 := 512) 0 q) (fun d => match d with
    | ⟨0, _⟩ => by show (0 : ℕ) = if (1 : ℕ) = 1 then 0 else _; rw [if_pos rfl]
    | ⟨1, _⟩ => by show q.val = if (512 : ℕ) = 1 then 0 else _; rw [if_neg (by decide)]; rfl)]
  exact shapeCast_apply β shapeCasts_S512_S1x512 (ix2 (n0 := 1) (n1 := 512) 0 q) (ix1 q)
    (by rewrite [Shape.rowMajor_val_one, Shape.rowMajor_val_two]; show q.val = 0 * 512 + q.val; omega)

/-! ## The stored block -/

/-- Entry (p, q) of what the body stores: the inner product of row `p` of `a` with column `q` of `w`, plus `β[q]`. -/
theorem stored_apply (a : Vec Ideal S1024x4096 .bf16) (w : Vec Ideal S4096x512 .bf16) (β : Vec Ideal S512 .f32) (p : Fin 1024) (q : Fin 512) :
    k0_pay1 (F := Ideal) a w β (ix2 p q) = (∑ k : Fin 4096, a (ix2 p k) * w (ix2 k q)) + β (ix1 q) := by
  unfold k0_pay1
  simp only [shapeCast_self]
  rw [addf_apply, product_apply, bias_apply]

end Cert.KernelIdeal.BlockValue

end
-- ==== Proof.RegionValue.lean ====
/-
  The array the region leaves.  The grid is 8 × 8; point (i, j) stages rows [1024·i, 1024·i + 1024) of the
  flattened input, columns [512·j, 512·j + 512) of the transposed weights and of the bias, and writes back the
  [1024, 512] block (i, j) of the output.  Entry (p, q) of that block is
      (Σ_k X[1024·i + p, k] · Wt[k, 512·j + q]) + B[512·j + q],
  which is entry (1024·i + p, 512·j + q) of ONE whole-array function, `rows X Wt B`; the 64 blocks tile the
  [8192, 4096] array, so after the run the array is that function.
-/
import proofs.«176916_j39779987096002_1_alg».proof.Proof.Gen.KernelIdeal.Frame
import proofs.«176916_j39779987096002_1_alg».proof.Proof.BlockValue
import proofs.«176916_j39779987096002_1_alg».proof.Proof.Linear
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The three staged arrays as the region finds them, at their literal types. -/
abbrev X (c : Dev nD) : FVec Ideal S8192x4096 .bf16 := V m c main_v16
abbrev Wt (c : Dev nD) : FVec Ideal S4096x4096 .bf16 := V m c main_v14
abbrev B (c : Dev nD) : FVec Ideal S4096 .f32 := V m c main_arg4

/-- The whole output array: every row of `X` against every column of `Wt`, plus the bias. -/
def out (c : Dev nD) : S8192x4096.Idx → EReal := Cert.Linear.rows (X m c) (Wt m c) (B m c)

theorem zeros2 : (![0, 0] : Fin 2 → Nat) = fun _ => 0 := funext fun a => by fin_cases a <;> rfl
theorem zeros1 : (![0] : Fin 1 → Nat) = fun _ => 0 := funext fun a => by fin_cases a; rfl

/-! ## One block -/

/-- A stored block against the whole-array function: if `a`, `w`, `β` are block-row `i0` of `X`, block-column `i1`
    of `Wt` and block `i1` of `B`, the stored block's entry `y` is `rows X Wt B` at row `1024·i0 + y₀`, column
    `512·i1 + y₁`. -/
theorem block_eq (X : FVec Ideal S8192x4096 .bf16) (Wt : FVec Ideal S4096x4096 .bf16) (B : FVec Ideal S4096 .f32)
    (a : Vec Ideal S1024x4096 .bf16) (w : Vec Ideal S4096x512 .bf16) (β : Vec Ideal S512 .f32)
    (i0 i1 : Nat) (h0 : i0 ≤ 7) (h1 : i1 ≤ 7)
    (ha : ∀ (p : Fin 1024) (k : Fin 4096) (r : Fin 8192), r.val = i0 * 1024 + p.val → a (ix2 p k) = X (ix2 r k))
    (hw : ∀ (k : Fin 4096) (q : Fin 512) (o : Fin 4096), o.val = i1 * 512 + q.val → w (ix2 k q) = Wt (ix2 k o))
    (hβ : ∀ (q : Fin 512) (o : Fin 4096), o.val = i1 * 512 + q.val → β (ix1 q) = B (ix1 o))
    (y : S1024x512.Idx) (J : S8192x4096.Idx) (hJ0 : (J 0).val = i0 * 1024 + (y 0).val) (hJ1 : (J 1).val = i1 * 512 + (y 1).val) :
    k0_pay1 (F := Ideal) a w β y = Cert.Linear.rows X Wt B J := by
  obtain ⟨p, q, rfl⟩ : ∃ (p : Fin 1024) (q : Fin 512), y = ix2 p q := ⟨y 0, y 1, eq_ix2 y⟩
  have hp : (J 0).val = i0 * 1024 + p.val := hJ0
  have hq : (J 1).val = i1 * 512 + q.val := hJ1
  rw [BlockValue.stored_apply]
  unfold Cert.Linear.rows
  rw [hβ q (J 1) hq]
  refine congrArg (· + B (ix1 (n := 4096) (J 1))) (Finset.sum_congr rfl fun k _ => ?_)
  rw [ha p k (J 0) hp, hw k q (J 1) hq]

/-! ## The index maps over the grid -/

/-- The input follows the output's block-row, the weights and the bias its block-column; both stay below 8. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 1) = win0_3.index t (1 : Fin 2)
    ∧ win0_3.index t (0 : Fin 2) ≤ 7 ∧ win0_3.index t (1 : Fin 2) ≤ 7 :=
  (by decide +kernel : ∀ t : Fin grid0.N, _)

/-- Every block of the output is some point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-! ## What a point writes back -/

theorem flushed_eq (c : Dev nD) (t : Fin cfg0.N) :
    (dats m 0 c).flushed 3 t = ((cfg0.win 3).blk t).view.read (Elt Ideal) (out m c) := by
  show (cfg0.win 3).cut (grid0.coords t) ((dats m 0 c).after 3 t) = _
  rw [after0_3]
  unfold out0_3
  rw [View.canon_unit_zero zeros2]
  simp only [View.ld_unit_zero (S := S1024x4096) zeros2, View.ld_unit_zero (S := S4096x512) zeros2, View.ld_unit_zero (S := S512) zeros1]
  obtain ⟨e0, e1, e2, e3, e4, e5, e6⟩ := idx_facts t
  funext j
  show k0_pay1 (F := Ideal) (iblk m c 0 t) (iblk m c 1 t) (iblk m c 2 t) j = out m c (((cfg0.win 3).blk t).view.emb j)
  unfold out
  refine block_eq (X m c) (Wt m c) (B m c) (iblk m c 0 t) (iblk m c 1 t) (iblk m c 2 t)
    (win0_3.index t (0 : Fin 2)) (win0_3.index t (1 : Fin 2)) e5 e6 ?_ ?_ ?_ j (((cfg0.win 3).blk t).view.emb j) ?_ ?_
  · intro p k r hr
    show V m c main_v16 (((cfg0.win 0).blk t).view.emb (ix2 p k)) = V m c main_v16 (ix2 r k)
    refine congrArg (V m c main_v16) (funext fun d => Fin.ext ?_)
    match d with
    | ⟨0, _⟩ => show win0_0.index t (0 : Fin 2) * 1024 + 1 * p.val = r.val; omega
    | ⟨1, _⟩ => show win0_0.index t (1 : Fin 2) * 4096 + 1 * k.val = k.val; omega
  · intro k q o ho
    show V m c main_v14 (((cfg0.win 1).blk t).view.emb (ix2 k q)) = V m c main_v14 (ix2 k o)
    refine congrArg (V m c main_v14) (funext fun d => Fin.ext ?_)
    match d with
    | ⟨0, _⟩ => show win0_1.index t (0 : Fin 2) * 4096 + 1 * k.val = k.val; omega
    | ⟨1, _⟩ => show win0_1.index t (1 : Fin 2) * 512 + 1 * q.val = o.val; omega
  · intro q o ho
    show V m c main_arg4 (((cfg0.win 2).blk t).view.emb (ix1 q)) = V m c main_arg4 (ix1 o)
    refine congrArg (V m c main_arg4) (funext fun d => Fin.ext ?_)
    match d with
    | ⟨0, _⟩ => show win0_2.index t (0 : Fin 1) * 512 + 1 * q.val = o.val; omega
  · show win0_3.index t (0 : Fin 2) * 1024 + 1 * (j 0).val = win0_3.index t (0 : Fin 2) * 1024 + (j 0).val; omega
  · show win0_3.index t (1 : Fin 2) * 512 + 1 * (j 1).val = win0_3.index t (1 : Fin 2) * 512 + (j 1).val; omega

/-! ## The blocks tile the array -/

theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v17).slice (win0_3.rect t)).set ↔ _
  rw [View.set_slice_whole, Rect.mem_set_unit]
  exact Iff.rfl

/-- Entry (r, o) lies in the block of the point whose index is (r / 1024, o / 512). -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-! ## The array after the run -/

theorem final (c : Dev nD) : (dats m 0 c).arrAt 3 cfg0.N = out m c :=
  (dats m 0 c).arrAt_eq_of_cover 3 (out m c) (fun t _ => flushed_eq m c t) cover

end Cert.KernelIdeal.RegionValue

end
-- ==== Proof.Entry.lean ====
/-
  What the kernel's three staged arrays hold when the region starts, as functions of the arguments.
  * the input window's array is the argument `x` flattened to [8192, 4096] (the narrowing to bf16 is the identity
    over the extended reals): row `b·2048 + s`, column `k` is `x[b, s, k]`;
  * the weight window's array is the dequantised weight matrix `W` — the very stage the reference computes from
    the same codebook, labels and scale — transposed: entry (k, o) is `W[o, k]`;
  * the bias window's array is the argument `bias` itself.
-/
import proofs.«176916_j39779987096002_1_alg».proof.Proof.Gen.KernelIdeal.Frame
import proofs.«176916_j39779987096002_1_alg».proof.Proof.Gen.ReferenceIdeal.Read
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The dequantised weights `W[o, i] = codebook[label[o·4096 + i]] / max(scale[i], 1e-8)` of memory `m` on core `c`:
    the reference's own stage, of the kernel's arguments. -/
abbrev weights (c : Dev nD) : S4096x4096.Idx → EReal :=
  Cert.ReferenceIdeal.Read.val_main_v12 (F := Ideal) (m ((c : Thread nD τ).loc main_arg1)) (m ((c : Thread nD τ).loc main_arg2))
    (m ((c : Thread nD τ).loc main_arg3))

/-- The input window's array: the argument flattened, then narrowed. -/
theorem input_eq (c : Dev nD) :
    @Eq (FVec Ideal S8192x4096 .bf16) (V m c main_v16)
      (truncf (F := Ideal) .bf16 (shapeCast S8192x4096 (m ((c : Thread nD τ).loc main_arg0)) shapeCasts_S4x2048x4096_S8192x4096) bitsLt_bf16_f32) := by
  show StableHlo.after hostOps0 (fun b => m (c, b)) (Proc.devRef .tc main_v16) = _
  after_results
  rfl

/-- The weight window's array: the dequantised weights transposed, then narrowed. -/
theorem weight_eq (c : Dev nD) :
    @Eq (FVec Ideal S4096x4096 .bf16) (V m c main_v14)
      (truncf (F := Ideal) .bf16 (transpose S4096x4096 [1, 0] (weights m c) transposes_S4096x4096_S4096x4096_1_0) bitsLt_bf16_f32) := by
  show StableHlo.after hostOps0 (fun b => m (c, b)) (Proc.devRef .tc main_v14) = _
  after_results
  rfl

/-- Row `b·2048 + s`, column `k` of the input window's array is `x[b, s, k]`. -/
theorem input_apply (c : Dev nD) (b : Fin 4) (s : Fin 2048) (k : Fin 4096) (r : Fin 8192) (hr : r.val = b.val * 2048 + s.val) :
    (V m c main_v16 : FVec Ideal S8192x4096 .bf16) (ix2 r k) = (m ((c : Thread nD τ).loc main_arg0) : FVec Ideal S4x2048x4096 .f32) (ix3 b s k) := by
  rw [input_eq m c, truncf_apply]
  exact shapeCast_apply _ shapeCasts_S4x2048x4096_S8192x4096 (ix2 r k) (ix3 b s k)
    (by rewrite [Shape.rowMajor_val_three, Shape.rowMajor_val_two]
        show (b.val * 2048 + s.val) * 4096 + k.val = r.val * 4096 + k.val
        rw [hr])

/-- Entry (k, o) of the weight window's array is `W[o, k]`. -/
theorem weight_apply (c : Dev nD) (o k : Fin 4096) :
    (V m c main_v14 : FVec Ideal S4096x4096 .bf16) (ix2 k o) = weights m c (ix2 o k) := by
  rw [weight_eq m c, truncf_apply]
  exact transpose_apply [1, 0] _ transposes_S4096x4096_S4096x4096_1_0 (ix2 k o) (ix2 o k)
    (fun d => match d with | ⟨0, _⟩ => rfl | ⟨1, _⟩ => rfl)

end Cert.KernelIdeal.Entry

end
-- ==== Proof.Result.lean ====
/-
  The kernel program's result.  After the region one host line reshapes the [8192, 4096] output array back to
  [4, 2048, 4096]: entry (b, s, o) is entry (b·2048 + s, o) of the region's array, which is
  `(Σ_k X[b·2048 + s, k] · Wt[k, o]) + B[o]`.  With `X` the input flattened, `Wt` the dequantised weights transposed and
  `B` the bias, that is the linear layer `(Σ_k x[b, s, k] · W[o, k]) + bias[o]`.
-/
import proofs.«176916_j39779987096002_1_alg».proof.Proof.RegionValue
import proofs.«176916_j39779987096002_1_alg».proof.Proof.Entry
import Idealize.ShloMosaic.Lib.StableHlo.Run

noncomputable section

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result buffer after the host tail: the region's output array, reshaped. -/
theorem tail_eq (c : Dev nD) :
    @Eq (FVec Ideal S4x2048x4096 .f32) (Pipeline.afterTail₀ cfgs (dats m) 0 (V0 m) [hostOps1] c main_v18)
      (shapeCast S4x2048x4096 (RegionValue.out m c) shapeCasts_S8192x4096_S4x2048x4096) := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.devRef .tc main_v17)
      = RegionValue.out m c :=
    (Pipeline.withArrays_arr spec0 launch0.win.arr_inj c _ _ 3).trans (RegionValue.final m c)
  rw [e]
  rfl

/-- Entry (b, s, o) of the result is the linear layer of the arguments: the input, the dequantised weights, the bias. -/
theorem result_eq_layer (c : Dev nD) :
    @Eq (FVec Ideal S4x2048x4096 .f32) (Pipeline.afterTail₀ cfgs (dats m) 0 (V0 m) [hostOps1] c main_v18)
      (Cert.Linear.layer (m ((c : Thread nD τ).loc main_arg0)) (Entry.weights m c) (m ((c : Thread nD τ).loc main_arg4))) := by
  rw [tail_eq]
  funext i
  have hi0 : (i 0).val < 4 := (i 0).isLt
  have hi1 : (i 1).val < 2048 := (i 1).isLt
  have hi2 : (i 2).val < 4096 := (i 2).isLt
  rw [shapeCast_apply _ shapeCasts_S8192x4096_S4x2048x4096 i
    (ix2 (n0 := 8192) (n1 := 4096) ⟨(i 0).val * 2048 + (i 1).val, by omega⟩ ⟨(i 2).val, hi2⟩)
    (by rewrite [Shape.rowMajor_val_two, Shape.rowMajor_val_three]; rfl)]
  unfold RegionValue.out
  rw [show RegionValue.B m c = m ((c : Thread nD τ).loc main_arg4) from V_main_arg4 m c]
  exact Cert.Linear.rows_flat (m ((c : Thread nD τ).loc main_arg0)) (Entry.weights m c) (m ((c : Thread nD τ).loc main_arg4))
    (RegionValue.X m c) (RegionValue.Wt m c)
    (fun b s k r hr => Entry.input_apply m c b s k r hr) (fun o k => Entry.weight_apply m c o k) i _ rfl rfl

/-! ## The run, read -/

/-- Every weakly fair execution of the kernel program ends with the result at the linear layer of the arguments and the
    arguments unchanged. -/
theorem run : θ_run defs (onTc (τ := τ) (main (F := Ideal))) ⟨m, fun _ => 0, ρ⟩ fun r => ∀ c : Dev nD,
      r.2.mem ((c.tc : Thread nD τ).loc main_v18)
        = Cert.Linear.layer (m ((c : Thread nD τ).loc main_arg0)) (Entry.weights m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v18 (Pipeline.mem_restRefs_of main_v18 (by decide) (by decide))).trans (result_eq_layer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c)))⟩)
    (run_main m ρ)

end Cert.KernelIdeal.Result

end
-- ==== Proof.lean ====
/-
  A vector-quantised linear layer.  The weights are dequantised on the host by both programs alike,
      W[o, i] = codebook[label[o·4096 + i]] / max(scale[i], 1e-8),
  and the result is `out[b, s, o] = (Σ_i x[b, s, i] · W[o, i]) + bias[o]`.
  The reference contracts `x`'s last axis with `W`'s second in one `dot_general` and adds the broadcast bias.  The kernel
  transposes `W`, flattens `x` to 8192 rows, narrows both to bf16 (the identity over the extended reals), multiplies
  [1024, 4096] × [4096, 512] blocks on an 8 × 8 grid with the bias block added, and reshapes the [8192, 4096] result back.
  Each stored block is a block of one whole-array function (Proof/RegionValue.lean), the blocks tile the array, and the
  reshape and the transpose only re-index the same sum (Proof/Linear.lean): both results are `Linear.layer x W bias`, with
  `W` literally the same stage of the same arguments (Proof/Entry.lean).  No law of arithmetic is used, so the
  precondition is never opened.  The three frames are the generated ones; the ideal pass rewrote nothing.
-/
import proofs.«176916_j39779987096002_1_alg».proof.Defs
import proofs.«176916_j39779987096002_1_alg».proof.Proof.Gen.Kernel
import proofs.«176916_j39779987096002_1_alg».proof.Proof.Gen.Kernel.Skeleton
import proofs.«176916_j39779987096002_1_alg».proof.Proof.Gen.Kernel.Launch
import proofs.«176916_j39779987096002_1_alg».proof.Proof.Gen.Kernel.Points
import proofs.«176916_j39779987096002_1_alg».proof.Proof.Gen.Kernel.Frame
import proofs.«176916_j39779987096002_1_alg».proof.Proof.Gen.KernelIdeal
import proofs.«176916_j39779987096002_1_alg».proof.Proof.Gen.KernelIdeal.Skeleton
import proofs.«176916_j39779987096002_1_alg».proof.Proof.Gen.KernelIdeal.Launch
import proofs.«176916_j39779987096002_1_alg».proof.Proof.Gen.KernelIdeal.Points
import proofs.«176916_j39779987096002_1_alg».proof.Proof.Gen.KernelIdeal.Frame
import proofs.«176916_j39779987096002_1_alg».proof.Proof.Gen.ReferenceIdeal
import proofs.«176916_j39779987096002_1_alg».proof.Proof.Gen.Pre_finite_inputs
import proofs.«176916_j39779987096002_1_alg».proof.Proof.Gen.ReferenceIdeal.Run
import proofs.«176916_j39779987096002_1_alg».proof.Proof.Gen.ReferenceIdeal.Read
import proofs.«176916_j39779987096002_1_alg».proof.Proof.RefLayer
import proofs.«176916_j39779987096002_1_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the linear layer of the input, the dequantised weights and the bias: the kernel by its run read
    through the region and the closing reshape, the reference by its stages read at an index; the weights are the same
    stage of arguments that agree. -/
theorem algebraic : Cert.algebraic_KernelIdeal_ReferenceIdeal := by
  intro m ρ m' ρ' _ hagree
  refine ⟨fun c => Cert.Linear.layer (m ((c.tc : Thread Cert.KernelIdeal.nD Cert.KernelIdeal.τ).loc Cert.KernelIdeal.main_arg0))
      (Cert.KernelIdeal.Entry.weights m c) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq_layer,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
